-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S1x2048 .f32) (main_v33 : IVec S_ 1) : IVec S_ 1 :=
  let main_v34 : FVec F S1x2048 .f32 := Host.absf main_arg7
  let main_cst_12 : FVec F S_ .f32 := constant S_ .f32 0x7F800000#32
  let main_v35 : FVec F S1x2048 .f32 := broadcastInDim S1x2048 ![] bcast_S_S1x2048 main_cst_12
  let main_v36 : IVec S1x2048 1 := cmpf .olt main_v34 main_v35
  let main_c_13 : IVec S_ 1 := constantI S_ 1 1#1
  let main_v37 : IVec S_ 1 := (fun x v => Host.reduce IntOp.andi x v reducesTo_S1x2048_S_d0_1 h_S_) main_v36 main_c_13
  let main_v38 : IVec S_ 1 := andi main_v33 main_v37
  main_v38

def fn_part1 {F : FTy → Type} [FloatOps F] (main_arg4 : FVec F S2048x2048 .f32) (main_arg5 : FVec F S1x2048 .f32) (main_arg6 : FVec F S1x2048 .f32) (main_arg7 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S1x2048 .f32 := Host.absf main_arg5
  let main_cst_8 : FVec F S_ .f32 := constant S_ .f32 0x7F800000#32
  let main_v25 : FVec F S1x2048 .f32 := broadcastInDim S1x2048 ![] bcast_S_S1x2048 main_cst_8
  let main_v26 : IVec S1x2048 1 := cmpf .olt main_v24 main_v25
  let main_c_9 : IVec S_ 1 := constantI S_ 1 1#1
  let main_v27 : IVec S_ 1 := (fun x v => Host.reduce IntOp.andi x v reducesTo_S1x2048_S_d0_1 h_S_) main_v26 main_c_9
  let main_v28 : IVec S_ 1 := andi main_v23 main_v27
  let main_v29 : FVec F S1x2048 .f32 := Host.absf main_arg6
  let main_cst_10 : FVec F S_ .f32 := constant S_ .f32 0x7F800000#32
  let main_v30 : FVec F S1x2048 .f32 := broadcastInDim S1x2048 ![] bcast_S_S1x2048 main_cst_10
  let main_v31 : IVec S1x2048 1 := cmpf .olt main_v29 main_v30
  let main_c_11 : IVec S_ 1 := constantI S_ 1 1#1
  let main_v32 : IVec S_ 1 := (fun x v => Host.reduce IntOp.andi x v reducesTo_S1x2048_S_d0_1 h_S_) main_v31 main_c_11
  let main_v33 : IVec S_ 1 := andi main_v28 main_v32
  fn_part2 (F := F) main_arg7 main_v33

def fn {F : FTy → Type} [FloatOps F] (main_arg0 : FVec F S1024x2048 .f32) (main_arg1 : FVec F S2048x2048 .f32) (main_arg2 : FVec F S2048x2048 .f32) (main_arg3 : FVec F S2048x2048 .f32) (main_arg4 : FVec F S2048x2048 .f32) (main_arg5 : FVec F S1x2048 .f32) (main_arg6 : FVec F S1x2048 .f32) (main_arg7 : FVec F S1x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S1024x2048 : Shape := ⟨2, ![1024, 2048]⟩
abbrev S2048x2048 : Shape := ⟨2, ![2048, 2048]⟩
abbrev S1x2048 : Shape := ⟨2, ![1, 2048]⟩
abbrev S2048x256 : Shape := ⟨2, ![2048, 256]⟩
abbrev S1x256 : Shape := ⟨2, ![1, 256]⟩
abbrev S1024x256 : Shape := ⟨2, ![1024, 256]⟩

abbrev nBuf : Space → Nat
  | .hbm => 10
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1024x2048, .bf16⟩
  | .hbm, ⟨9, _⟩ => ⟨S1024x2048, .f32⟩
  | .local _ .vmem, ⟨0, _⟩ => ⟨S1024x2048, .bf16⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1024x256, .f32⟩
  | .local _ .vmem, ⟨16, _⟩ => ⟨S1024x256, .f32⟩
  | .local _ .vmem, ⟨17, _⟩ => ⟨S2048x256, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  packedbf16_S2048x256_S2048x256_0_0 : (Rect.unit (s := S2048x256) ![0, 0] S2048x256.size inb_S2048x256_S2048x256_0_0).PackedRows (EltTy.packing .bf16)
  inb_S1x256_S1x256_0_0 : ∀ a, (![0, 0] : Fin 2 → Nat) a + S1x256.size a ≤ S1x256.size a
  h_S1x256 : 0 < S1x256.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .bf16 = 32 ∨ (Rect.block (s := S1024x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x2048.size a
  hwx0_1 : ∀ i : grid0.Coords, EltTy.bits .f32 = 32 ∨ (Rect.block (s := S2048x2048) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x2048.size a
  hwx0_2 : ∀ i : grid0.Coords, EltTy.bits .f32 = 32 ∨ (Rect.block (s := S2048x2048) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .f32 = 32 ∨ (Rect.block (s := S2048x2048) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .f32 = 32 ∨ (Rect.block (s := S2048x2048) S2048x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x2048.size a
  hwx0_8 : ∀ i : grid0.Coords, EltTy.bits .f32 = 32 ∨ (Rect.block (s := S1024x2048) S1024x256.size (cc0_transform_8 i) (hinb0_8 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_v0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x2048 : Shape := ⟨2, ![2048, 2048]⟩
abbrev S1x2048 : Shape := ⟨2, ![1, 2048]⟩
abbrev S1024x512 : Shape := ⟨2, ![1024, 512]⟩
abbrev S512x256 : Shape := ⟨2, ![512, 256]⟩
abbrev S1x256 : Shape := ⟨2, ![1, 256]⟩
abbrev S1024x256 : Shape := ⟨2, ![1024, 256]⟩

abbrev nBuf : Space → Nat
  | .hbm => 9
  | .vmem => 19
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S1024x2048, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  inb_S1x256_S1x256_0_0 : ∀ a, (![0, 0] : Fin 2 → Nat) a + S1x256.size a ≤ S1x256.size a
  h_S1x256 : 0 < S1x256.numel
  broadcasts_S1x256_S1024x256 : S1x256.Broadcasts S1024x256
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x2048.size a
  hwx0_0 : ∀ i : grid0.Coords, EltTy.bits .f32 = 32 ∨ (Rect.block (s := S1024x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S2048x2048.size a
  hwx0_1 : ∀ i : grid0.Coords, EltTy.bits .f32 = 32 ∨ (Rect.block (s := S2048x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x2048.size a
  hwx0_2 : ∀ i : grid0.Coords, EltTy.bits .f32 = 32 ∨ (Rect.block (s := S2048x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x2048.size a
  hwx0_3 : ∀ i : grid0.Coords, EltTy.bits .f32 = 32 ∨ (Rect.block (s := S2048x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x2048.size a
  hwx0_4 : ∀ i : grid0.Coords, EltTy.bits .f32 = 32 ∨ (Rect.block (s := S2048x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x2048.size a
  hwx0_8 : ∀ i : grid0.Coords, EltTy.bits .f32 = 32 ∨ (Rect.block (s := S1024x2048) S1024x256.size (cc0_transform_8 i) (hinb0_8 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== Proof.KernelBlocks.lean ====
/-
  Where the full-contraction program's windows sit in their arrays.

  The grid has 8 points; point t handles output tile t (256 columns wide) with the whole contraction:
    * the activations' window holds the whole array, already narrowed to the matrix unit's input format by the one
      host operation before the kernel (a change of float format: the identity on the extended reals);
    * each weight-shaped block is all 2048 rows, columns 256·t … 256·t + 255 of its array;
    * each bias-shaped block is columns 256·t … + 255 of its row;
    * the output tile is rows 0 … 1023, columns 256·t … + 255 of the result.
-/
import proofs.«180187_g2000605425660429_pallaspilot1_180_2_alg».proof.Proof.Gen.KernelIdeal.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Two indices of a matrix with the same row and the same column are the same index. -/
theorem idx2_ext {n0 n1 : ℕ} (u v : (⟨2, ![n0, n1]⟩ : Shape).Idx) (h0 : (u 0).val = (v 0).val)
    (h1 : (u 1).val = (v 1).val) : u = v := by
  funext a
  apply Fin.ext
  match a with
  | ⟨0, _⟩ => exact h0
  | ⟨1, _⟩ => exact h1

/-- The printed index maps, decided once over the 8 grid points. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The array the activations' window stages is the host's narrowing of x. -/
theorem x_narrowed (c : Dev nD) :
    (V m c main_v0 : S1024x2048.Idx → Elt F .bf16) = truncf .bf16 (m ((c : Thread nD τ).loc main_arg0)) bitsLt_bf16_f32 := by
  dsimp only [V, hostOps0]
  after_results

/-- cγ's block at point `t`, entry (k, o), is cγ at (k, 256·t + o). -/
theorem cg_apply (c : Dev nD) (t : Fin cfg0.N) (k : Fin 2048) (o : Fin 256) (i : S2048x2048.Idx)
    (h0 : (i 0).val = k.val) (h1 : (i 1).val = 256 * t.val + o.val) :
    (iblk m c 1 t : Vec F S2048x256 .f32) (ix2 k o) = m ((c : Thread nD τ).loc main_arg1) i := by
  obtain ⟨x0, x1, a0, a1, b0, b1, d0, d1, e0, e1, f0, f1, g0, g1, p0, p1, y0, y1⟩ := idx_facts t
  unfold iblk
  rw [View.read_apply]
  show V m c main_arg1 _ = m ((c : Thread nD τ).loc main_arg1) i
  rw [V_main_arg1]
  refine congrArg _ (idx2_ext _ _ ?_ ?_)
  · show win0_1.index t (0 : Fin 2) * 2048 + 1 * k.val = (i 0).val; omega
  · show win0_1.index t (1 : Fin 2) * 256 + 1 * o.val = (i 1).val; omega

/-- μ's block at point `t`, entry (k, o), is μ at (k, 256·t + o). -/
theorem wmu_apply (c : Dev nD) (t : Fin cfg0.N) (k : Fin 2048) (o : Fin 256) (i : S2048x2048.Idx)
    (h0 : (i 0).val = k.val) (h1 : (i 1).val = 256 * t.val + o.val) :
    (iblk m c 2 t : Vec F S2048x256 .f32) (ix2 k o) = m ((c : Thread nD τ).loc main_arg2) i := by
  obtain ⟨x0, x1, a0, a1, b0, b1, d0, d1, e0, e1, f0, f1, g0, g1, p0, p1, y0, y1⟩ := idx_facts t
  unfold iblk
  rw [View.read_apply]
  show V m c main_arg2 _ = m ((c : Thread nD τ).loc main_arg2) i
  rw [V_main_arg2]
  refine congrArg _ (idx2_ext _ _ ?_ ?_)
  · show win0_2.index t (0 : Fin 2) * 2048 + 1 * k.val = (i 0).val; omega
  · show win0_2.index t (1 : Fin 2) * 256 + 1 * o.val = (i 1).val; omega

/-- σ's block at point `t`, entry (k, o), is σ at (k, 256·t + o). -/
theorem wsig_apply (c : Dev nD) (t : Fin cfg0.N) (k : Fin 2048) (o : Fin 256) (i : S2048x2048.Idx)
    (h0 : (i 0).val = k.val) (h1 : (i 1).val = 256 * t.val + o.val) :
    (iblk m c 3 t : Vec F S2048x256 .f32) (ix2 k o) = m ((c : Thread nD τ).loc main_arg3) i := by
  obtain ⟨x0, x1, a0, a1, b0, b1, d0, d1, e0, e1, f0, f1, g0, g1, p0, p1, y0, y1⟩ := idx_facts t
  unfold iblk
  rw [View.read_apply]
  show V m c main_arg3 _ = m ((c : Thread nD τ).loc main_arg3) i
  rw [V_main_arg3]
  refine congrArg _ (idx2_ext _ _ ?_ ?_)
  · show win0_3.index t (0 : Fin 2) * 2048 + 1 * k.val = (i 0).val; omega
  · show win0_3.index t (1 : Fin 2) * 256 + 1 * o.val = (i 1).val; omega

/-- ε's block at point `t`, entry (k, o), is ε at (k, 256·t + o). -/
theorem eps_apply (c : Dev nD) (t : Fin cfg0.N) (k : Fin 2048) (o : Fin 256) (i : S2048x2048.Idx)
    (h0 : (i 0).val = k.val) (h1 : (i 1).val = 256 * t.val + o.val) :
    (iblk m c 4 t : Vec F S2048x256 .f32) (ix2 k o) = m ((c : Thread nD τ).loc main_arg4) i := by
  obtain ⟨x0, x1, a0, a1, b0, b1, d0, d1, e0, e1, f0, f1, g0, g1, p0, p1, y0, y1⟩ := idx_facts t
  unfold iblk
  rw [View.read_apply]
  show V m c main_arg4 _ = m ((c : Thread nD τ).loc main_arg4) i
  rw [V_main_arg4]
  refine congrArg _ (idx2_ext _ _ ?_ ?_)
  · show win0_4.index t (0 : Fin 2) * 2048 + 1 * k.val = (i 0).val; omega
  · show win0_4.index t (1 : Fin 2) * 256 + 1 * o.val = (i 1).val; omega

/-- βμ's block at point `t`, entry (0, o), is βμ at (0, 256·t + o). -/
theorem bmu_apply (c : Dev nD) (t : Fin cfg0.N) (z : Fin 1) (o : Fin 256) (i : S1x2048.Idx)
    (h0 : (i 0).val = 0) (h1 : (i 1).val = 256 * t.val + o.val) :
    (iblk m c 5 t : Vec F S1x256 .f32) (ix2 z o) = m ((c : Thread nD τ).loc main_arg5) i := by
  obtain ⟨x0, x1, a0, a1, b0, b1, d0, d1, e0, e1, f0, f1, g0, g1, p0, p1, y0, y1⟩ := idx_facts t
  have hz : z.val = 0 := by omega
  unfold iblk
  rw [View.read_apply]
  show V m c main_arg5 _ = m ((c : Thread nD τ).loc main_arg5) i
  rw [V_main_arg5]
  refine congrArg _ (idx2_ext _ _ ?_ ?_)
  · show win0_5.index t (0 : Fin 2) * 1 + 1 * z.val = (i 0).val; omega
  · show win0_5.index t (1 : Fin 2) * 256 + 1 * o.val = (i 1).val; omega

/-- βσ's block at point `t`, entry (0, o), is βσ at (0, 256·t + o). -/
theorem bsig_apply (c : Dev nD) (t : Fin cfg0.N) (z : Fin 1) (o : Fin 256) (i : S1x2048.Idx)
    (h0 : (i 0).val = 0) (h1 : (i 1).val = 256 * t.val + o.val) :
    (iblk m c 6 t : Vec F S1x256 .f32) (ix2 z o) = m ((c : Thread nD τ).loc main_arg6) i := by
  obtain ⟨x0, x1, a0, a1, b0, b1, d0, d1, e0, e1, f0, f1, g0, g1, p0, p1, y0, y1⟩ := idx_facts t
  have hz : z.val = 0 := by omega
  unfold iblk
  rw [View.read_apply]
  show V m c main_arg6 _ = m ((c : Thread nD τ).loc main_arg6) i
  rw [V_main_arg6]
  refine congrArg _ (idx2_ext _ _ ?_ ?_)
  · show win0_6.index t (0 : Fin 2) * 1 + 1 * z.val = (i 0).val; omega
  · show win0_6.index t (1 : Fin 2) * 256 + 1 * o.val = (i 1).val; omega

/-- εb's block at point `t`, entry (0, o), is εb at (0, 256·t + o). -/
theorem epsb_apply (c : Dev nD) (t : Fin cfg0.N) (z : Fin 1) (o : Fin 256) (i : S1x2048.Idx)
    (h0 : (i 0).val = 0) (h1 : (i 1).val = 256 * t.val + o.val) :
    (iblk m c 7 t : Vec F S1x256 .f32) (ix2 z o) = m ((c : Thread nD τ).loc main_arg7) i := by
  obtain ⟨x0, x1, a0, a1, b0, b1, d0, d1, e0, e1, f0, f1, g0, g1, p0, p1, y0, y1⟩ := idx_facts t
  have hz : z.val = 0 := by omega
  unfold iblk
  rw [View.read_apply]
  show V m c main_arg7 _ = m ((c : Thread nD τ).loc main_arg7) i
  rw [V_main_arg7]
  refine congrArg _ (idx2_ext _ _ ?_ ?_)
  · show win0_7.index t (0 : Fin 2) * 1 + 1 * z.val = (i 0).val; omega
  · show win0_7.index t (1 : Fin 2) * 256 + 1 * o.val = (i 1).val; omega

/-- The output tile's entry (r, o) at point `t` sits at (r, 256·t + o) of the result. -/
theorem out_emb (t : Fin cfg0.N) (j : S1024x256.Idx) :
    ((((cfg0.win 8).blk t).view.emb j) 0).val = (j 0).val
    ∧ ((((cfg0.win 8).blk t).view.emb j) 1).val = 256 * t.val + (j 1).val := by
  obtain ⟨x0, x1, a0, a1, b0, b1, d0, d1, e0, e1, f0, f1, g0, g1, p0, p1, y0, y1⟩ := idx_facts t
  constructor
  · show win0_8.index t (0 : Fin 2) * 1024 + 1 * (j 0).val = (j 0).val; omega
  · show win0_8.index t (1 : Fin 2) * 256 + 1 * (j 1).val = 256 * t.val + (j 1).val; omega

/-- An index of the result lies in point `t`'s output tile iff its column lies in the tile's 256 columns. -/
theorem mem_out (t : Fin cfg0.N) (i : S1024x2048.Idx) :
    i ∈ ((cfg0.win 8).blk t).view.set ↔ 256 * t.val ≤ (i 1).val ∧ (i 1).val < 256 * t.val + 256 := by
  obtain ⟨x0, x1, a0, a1, b0, b1, d0, d1, e0, e1, f0, f1, g0, g1, p0, p1, y0, y1⟩ := idx_facts t
  have hi0 : (i 0).val < 1024 := (i 0).isLt
  show i ∈ ((View.whole main_v1).slice (win0_8.rect t)).set ↔ _
  rw [View.set_slice_whole, Rect.mem_set_unit]
  constructor
  · intro h
    have b1 : win0_8.index t (1 : Fin 2) * 256 ≤ (i 1).val ∧ (i 1).val < win0_8.index t (1 : Fin 2) * 256 + 256 := h 1
    omega
  · intro h a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 256 ≤ (i 1).val ∧ (i 1).val < win0_8.index t (1 : Fin 2) * 256 + 256; omega

end Cert.KernelIdeal.Blocks

/-! The activations' window, on the extended reals: narrowing the format changes nothing. -/

namespace Cert.KernelIdeal.Blocks

open Cert.KernelIdeal Cert.KernelIdeal.Gen Idealize.ShloMosaic.ValueIdx

/-- The activations' block at any point, entry (r, k), is x at (r, k). -/
theorem x_apply (m : (ℓ : Loc nD τ sig) → Buf (Elt Ideal) ℓ) (c : Dev nD) (t : Fin cfg0.N) (r : Fin 1024) (k : Fin 2048)
    (i : S1024x2048.Idx) (h0 : (i 0).val = r.val) (h1 : (i 1).val = k.val) :
    (iblk m c 0 t : Vec Ideal S1024x2048 .bf16) (ix2 r k) = m ((c : Thread nD τ).loc main_arg0) i := by
  obtain ⟨x0, x1, a0, a1, b0, b1, d0, d1, e0, e1, f0, f1, g0, g1, p0, p1, y0, y1⟩ := idx_facts t
  unfold iblk
  rw [View.read_apply]
  show V m c main_v0 _ = m ((c : Thread nD τ).loc main_arg0) i
  rw [x_narrowed m c]
  show m ((c : Thread nD τ).loc main_arg0) _ = m ((c : Thread nD τ).loc main_arg0) i
  refine congrArg _ (idx2_ext _ _ ?_ ?_)
  · show win0_0.index t (0 : Fin 2) * 1024 + 1 * r.val = (i 0).val; omega
  · show win0_0.index t (1 : Fin 2) * 2048 + 1 * k.val = (i 1).val; omega

end Cert.KernelIdeal.Blocks

end
-- ==== Proof.KernelPieces.lean ====
/-
  What the full-contraction program's body leaves in an output tile, as a value.

  At every grid point the body first stores the sampled weight tile  cγ ⊙ (μ + σ ⊙ ε)  (narrowed to the matrix
  unit's input format) into its scratch, then loads it back and emits  x · scratch + (βμ + βσ ⊙ εb)  spread over
  the rows. The load follows a store that covers the whole scratch, so it reads what was stored; the one store to
  the output tile covers it.
-/
import proofs.«180187_g2000605425660429_pallaspilot1_180_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offset of a whole-buffer rectangle. -/
theorem hz : (![0, 0] : Fin 2 → Nat) = fun _ => 0 := funext fun a => by fin_cases a <;> rfl

/-- The emitted tile is the product of the activations with the sampled weight tile, plus the sampled bias row. -/
theorem emit (c : Dev nD) (i : grid0.Coords) (arg1 : Memref sig .tc .vmem S1024x2048 .bf16) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x256 .f32) (harg4 : arg4.IsWhole) (arg5 : Memref sig .tc .vmem S2048x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1024x256 .f32) (harg9 : arg9.IsWhole) (arg10 : Memref sig .tc .vmem S2048x256 .bf16) (harg10 : arg10.IsWhole) (x0 : Vec F S1024x2048 .bf16) (x1 : Vec F S2048x256 .f32) (x2 : Vec F S2048x256 .f32) (x3 : Vec F S2048x256 .f32) (x4 : Vec F S2048x256 .f32) (x5 : Vec F S1x256 .f32) (x6 : Vec F S1x256 .f32) (x7 : Vec F S1x256 .f32) :
    out0_A_8 c i arg1 harg1 arg2 harg2 arg3 harg3 arg4 harg4 arg5 harg5 arg6 harg6 arg7 harg7 arg8 harg8 arg9 harg9 arg10 harg10 x0 x1 x2 x3 x4 x5 x6 x7 = k0_pay2 x5 x6 x7 x0 (k0_pay1 x1 x2 x3 x4) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread,
    View.readCov_unit_zero (S := S2048x256) _ hz,
    View.ld_unit_zero (S := S1024x2048) hz, View.ld_unit_zero (S := S2048x256) hz,
    View.ld_unit_zero (S := S1x256) hz]

end Cert.KernelIdeal.Pieces

end
-- ==== Proof.LibPlainProduct.lean ====
/-
  A matrix product read at an index given by coordinates, and a row spread over the rows of a matrix.

  The matrix unit's product of an m×k by a k×n matrix into an accumulator, with the dimension numbers that contract
  the left operand's second axis against the right operand's first and have no batch axis, is, at the ideal values and
  at row `a`, column `b`: the accumulator there plus the sum over the contracted coordinate `c` of
  `A[a, c] · B[c, b]`.  And a `[1, n]` row broadcast to `[m, n]` reads, at `(a, b)`, the row's entry of column `b`.
  Nothing here names a program.
-/
import Idealize.ShloMosaic.PureOps.Ideal.Laws
import Idealize.ShloMosaic.Lib.ValueIdx
import Idealize.ShloMosaic.Lib.Pipeline.Value

noncomputable section

open scoped BigOperators

namespace Cert.PlainProduct

open Idealize.ShloMosaic Idealize.ShloMosaic.ValueIdx

/-- The product of an m×k by a k×n matrix added into an accumulator, read at `(a, b)`: the accumulator's entry plus
    `∑ c, A[a, c] · B[c, b]`. `w` is the record's well-formedness, which a program states. -/
theorem matmul_apply_ix2 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (acc : FVec Ideal ⟨2, ![m, n]⟩ .f32) (a : Fin m) (b : Fin n) :
    matmul (⟨[1], [0], [0], [1], [], [], w⟩ : DotDims _ _ _) prec A B acc (ix2 a b)
      = acc (ix2 a b) + ∑ c : Fin k, A (ix2 a c) * B (ix2 c b) := by
  show FloatOps.matmul _ prec A B acc (ix2 a b) = _
  rw [Ideal.matmul_apply,
    ← Equiv.sum_comp (contrEquiv1 (⟨[1], [0], [0], [1], [], [], w⟩ : DotDims _ _ _) k rfl rfl).symm]
  refine congrArg (acc (ix2 a b) + ·) (Finset.sum_congr rfl fun c _ => ?_)
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- A `[1, n]` row broadcast to `[m, n]` reads, at `(a, b)`, the row's entry of column `b`. -/
theorem broadcastTo_row_apply {α : Type} {m n : ℕ} (v : (⟨2, ![1, n]⟩ : Shape).Idx → α)
    (h : (⟨2, ![1, n]⟩ : Shape).Broadcasts ⟨2, ![m, n]⟩) (a : Fin m) (b : Fin n) :
    broadcastTo ⟨2, ![m, n]⟩ v h (ix2 a b) = v (ix2 (0 : Fin 1) b) := by
  refine broadcastTo_apply v h (ix2 a b) (ix2 (0 : Fin 1) b) fun ax => ?_
  match ax with
  | ⟨0, _⟩ => rfl
  | ⟨1, _⟩ =>
    show b.val = if n = 1 then 0 else b.val
    split
    · have := b.isLt; omega
    · rfl

end Cert.PlainProduct

end
-- ==== Proof.KernelPayload.lean ====
/-
  The full-contraction program's emitted tile read at one entry, on the extended reals.

  With the activations  x [1024, 2048]  (already narrowed to the matrix unit's input format, which changes nothing
  on the extended reals), a tile's  cγ, μ, σ, ε [2048, 256]  and bias rows [1, 256], the emitted tile at (r, o) is

      (∑ k < 2048, x[r, k] · (cγ[k, o] · (μ[k, o] + σ[k, o] · ε[k, o]))) + (βμ[0, o] + βσ[0, o] · εb[0, o]).
-/
import proofs.«180187_g2000605425660429_pallaspilot1_180_2_alg».proof.Proof.Gen.KernelIdeal.Skeleton
import proofs.«180187_g2000605425660429_pallaspilot1_180_2_alg».proof.Proof.LibPlainProduct

noncomputable section

open scoped BigOperators
open Idealize.ShloMosaic Idealize.ShloMosaic.TcCoe Idealize.SL.Sem

namespace Cert.KernelIdeal.Payload

open Cert.KernelIdeal Cert.KernelIdeal.Gen Idealize.ShloMosaic.ValueIdx

/-- The emitted tile at row `r`, column `o` of the tile. -/
theorem emit_apply (bmu bsig epsb : Vec Ideal S1x256 .f32) (x : Vec Ideal S1024x2048 .bf16)
    (cg wmu wsig eps : Vec Ideal S2048x256 .f32) (r : Fin 1024) (o : Fin 256) :
    k0_pay2 (F := Ideal) bmu bsig epsb x (k0_pay1 (F := Ideal) cg wmu wsig eps) (ix2 r o)
      = (∑ k : Fin 2048, x (ix2 r k) * (cg (ix2 k o) * (wmu (ix2 k o) + wsig (ix2 k o) * eps (ix2 k o))))
        + (bmu (ix2 (0 : Fin 1) o) + bsig (ix2 (0 : Fin 1) o) * epsb (ix2 (0 : Fin 1) o)) := by
  unfold k0_pay2 k0_pay1
  simp only [shapeCast_self]
  rw [addf_apply, Cert.PlainProduct.broadcastTo_row_apply]
  refine congrArg₂ (· + ·) ?_ rfl
  refine (Cert.PlainProduct.matmul_apply_ix2 (φ₁ := .bf16) (φ₂ := .bf16) dot_S1024x2048_S2048x256_S1024x256_1_0_0_1_n_n_wf none x
    (truncf .bf16 (mulf cg (addf wmu (mulf wsig eps))) bitsLt_bf16_f32) (constant S1024x256 .f32 0x00000000#32) r o).trans ?_
  rw [constant_apply, Ideal.ofBits_zero_f32, zero_add]
  rfl

end Cert.KernelIdeal.Payload

end
-- ==== Proof.Spec.lean ====
/-
  The mathematics both programs compute, stated once and free of either program.

  With the sampled weight  w[k, o] = cγ[k, o] · (μ[k, o] + σ[k, o] · ε[k, o])  and the sampled bias
  b[o] = βμ[o] + βσ[o] · εb[o], the layer's output is

      y[r, o] = (∑ k < 2048, x[r, k] · w[k, o]) + b[o]

  on the extended reals.  One program contracts over all 2048 indices at once; the other cuts the contraction
  into four runs of 512 and adds the four partial sums into a zeroed accumulator, one after the other.  The two
  agree because addition on the extended reals is commutative and associative: a sum over 2048 consecutive
  indices is the sum of its four consecutive quarters (`sum_quarters`).  No distributivity is used, so nothing
  here needs the inputs to be finite.
-/
import Idealize.ShloMosaic.PureOps.Ideal
import Idealize.ShloMosaic.Lib.ValueIdx

noncomputable section

open scoped BigOperators

namespace Cert.SampledLinear

open Idealize.ShloMosaic Idealize.ShloMosaic.ValueIdx

/-- The shapes of the activations, of a weight-shaped array and of a bias-shaped row. -/
abbrev SAct : Shape := ⟨2, ![1024, 2048]⟩
abbrev SWgt : Shape := ⟨2, ![2048, 2048]⟩
abbrev SRow : Shape := ⟨2, ![1, 2048]⟩

/-- The sampled weight at contraction index `k` and output column `o`: cγ · (μ + σ · ε). -/
def wgt (cg wmu wsig eps : SWgt.Idx → EReal) (k o : Fin 2048) : EReal :=
  cg (ix2 k o) * (wmu (ix2 k o) + wsig (ix2 k o) * eps (ix2 k o))

/-- The sampled bias at output column `o`: βμ + βσ · εb. -/
def bias (bmu bsig epsb : SRow.Idx → EReal) (o : Fin 2048) : EReal :=
  bmu (ix2 0 o) + bsig (ix2 0 o) * epsb (ix2 0 o)

/-- The layer's output, index by index: the full contraction of row `r` of `x` against column `o` of the
    sampled weight, plus the sampled bias of that column. -/
def out (x : SAct.Idx → EReal) (cg wmu wsig eps : SWgt.Idx → EReal) (bmu bsig epsb : SRow.Idx → EReal) :
    SAct.Idx → EReal := fun j =>
  (∑ k : Fin 2048, x (ix2 (j 0) k) * wgt cg wmu wsig eps k (j 1)) + bias bmu bsig epsb (j 1)

/-- A sum over 2048 consecutive naturals is the sum of its four consecutive quarters of 512, in any commutative
    monoid: only commutativity and associativity of the addition are used. -/
theorem sum_quarters {β : Type*} [AddCommMonoid β] (f : ℕ → β) :
    ∑ s ∈ Finset.range 4, ∑ k : Fin 512, f (512 * s + k.val) = ∑ k : Fin 2048, f k.val := by
  have hq : ∀ s : ℕ, ∑ k : Fin 512, f (512 * s + k.val) = ∑ i ∈ Finset.range 512, f (512 * s + i) :=
    fun s => Fin.sum_univ_eq_sum_range (fun i => f (512 * s + i)) 512
  rw [Fin.sum_univ_eq_sum_range f 2048]
  simp only [hq]
  rw [show (2048 : ℕ) = 512 + 512 + 512 + 512 from rfl, Finset.sum_range_add, Finset.sum_range_add,
    Finset.sum_range_add]
  simp only [Finset.sum_range_succ, Finset.sum_range_zero, zero_add, Nat.mul_zero, Nat.mul_one]

/-- Contraction index `k` of quarter `s`: the quarters are consecutive runs of 512. -/
def qk (s : ℕ) (hs : s < 4) (k : Fin 512) : Fin 2048 := ⟨512 * s + k.val, by have := k.isLt; omega⟩

/-- FOUR QUARTERS MAKE THE WHOLE. If `p s` is the partial sum of quarter `s` of the contraction of row `r` against
    column `oc` of the sampled weight, and `b` is the sampled bias of that column, then adding the four partial sums
    to zero one after the other, and the bias last, gives the layer's output at the entry in row `r`, column `oc`. -/
theorem out_eq_of_quarters (x : SAct.Idx → EReal) (cg wmu wsig eps : SWgt.Idx → EReal) (bmu bsig epsb : SRow.Idx → EReal)
    (r : Fin 1024) (oc : Fin 2048) (p : ℕ → EReal) (b : EReal)
    (hp : ∀ (s : ℕ) (hs : s < 4), p s = ∑ k : Fin 512, x (ix2 r (qk s hs k)) * wgt cg wmu wsig eps (qk s hs k) oc)
    (hb : b = bias bmu bsig epsb oc)
    (i : SAct.Idx) (hi0 : (i 0).val = r.val) (hi1 : (i 1).val = oc.val) :
    (0 + ∑ s ∈ Finset.range 4, p s) + b = out x cg wmu wsig eps bmu bsig epsb i := by
  have e0 : i 0 = r := Fin.ext hi0
  have e1 : i 1 = oc := Fin.ext hi1
  unfold out
  rw [e0, e1, hb, zero_add]
  congr 1
  let f : ℕ → EReal := fun n => if h : n < 2048 then x (ix2 r ⟨n, h⟩) * wgt cg wmu wsig eps ⟨n, h⟩ oc else 0
  have hf : ∑ k : Fin 2048, f k.val = ∑ k : Fin 2048, x (ix2 r k) * wgt cg wmu wsig eps k oc :=
    Finset.sum_congr rfl fun k _ => by simp only [f, dif_pos k.isLt, Fin.eta]
  rw [← hf, ← sum_quarters f]
  refine Finset.sum_congr rfl fun s hs => ?_
  have hs4 : s < 4 := Finset.mem_range.mp hs
  rw [hp s hs4]
  refine Finset.sum_congr rfl fun k _ => ?_
  have hk : 512 * s + k.val < 2048 := by have := k.isLt; omega
  simp only [f, dif_pos hk]
  rfl

end Cert.SampledLinear

end
-- ==== Proof.KernelWhole.lean ====
/-
  The full-contraction program's result array is the layer's output.

  Point t emits, for its tile of 256 columns, the whole contraction of each row of x against each column of the
  sampled weight, plus the sampled bias of the column. Read through the windows that is the layer's output at
  (r, 256·t + o), term by term; the eight tiles cover the result's 2048 columns, each written once.
-/
import proofs.«180187_g2000605425660429_pallaspilot1_180_2_alg».proof.Proof.KernelBlocks
import proofs.«180187_g2000605425660429_pallaspilot1_180_2_alg».proof.Proof.KernelPieces
import proofs.«180187_g2000605425660429_pallaspilot1_180_2_alg».proof.Proof.KernelPayload
import proofs.«180187_g2000605425660429_pallaspilot1_180_2_alg».proof.Proof.Spec

noncomputable section

open scoped BigOperators
open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx

variable (m : (ℓ : Loc nD τ sig) → Buf (Elt Ideal) ℓ) (ρ : Dev nD → PrngReg)

/-- The layer's output of the argument arrays as launched. -/
abbrev result (c : Dev nD) : Buf (Elt Ideal) ((c : Thread nD τ).loc main_v1) :=
  Cert.SampledLinear.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- THE TILE point `t` emits, entry by entry, is the layer's output there. -/
theorem tile_eq (c : Dev nD) (t : Fin cfg0.N) (j : S1024x256.Idx) (i : S1024x2048.Idx)
    (hi0 : (i 0).val = (j 0).val) (hi1 : (i 1).val = 256 * t.val + (j 1).val) :
    k0_pay2 (F := Ideal) (iblk m c 5 t) (iblk m c 6 t) (iblk m c 7 t) (iblk m c 0 t)
      (k0_pay1 (F := Ideal) (iblk m c 1 t) (iblk m c 2 t) (iblk m c 3 t) (iblk m c 4 t)) j = result m c i := by
  obtain ⟨r, o, rfl⟩ : ∃ (r : Fin 1024) (o : Fin 256), j = ix2 r o := ⟨j 0, j 1, eq_ix2 j⟩
  have hN : cfg0.N = 8 := N_0
  have ht := t.isLt
  have ho := o.isLt
  have e0 : i 0 = r := Fin.ext hi0
  have e1 : i 1 = (⟨256 * t.val + o.val, by omega⟩ : Fin 2048) := Fin.ext hi1
  refine (Payload.emit_apply (iblk m c 5 t) (iblk m c 6 t) (iblk m c 7 t) (iblk m c 0 t)
    (iblk m c 1 t) (iblk m c 2 t) (iblk m c 3 t) (iblk m c 4 t) r o).trans ?_
  show _ = Cert.SampledLinear.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i
  unfold Cert.SampledLinear.out Cert.SampledLinear.bias
  rw [e0, e1]
  refine congrArg₂ (· + ·) (Finset.sum_congr rfl fun k _ => ?_) ?_
  · unfold Cert.SampledLinear.wgt
    rw [Blocks.x_apply m c t r k (ix2 r k) rfl rfl,
      Blocks.cg_apply m c t k o (ix2 k ⟨256 * t.val + o.val, by omega⟩) rfl rfl,
      Blocks.wmu_apply m c t k o (ix2 k ⟨256 * t.val + o.val, by omega⟩) rfl rfl,
      Blocks.wsig_apply m c t k o (ix2 k ⟨256 * t.val + o.val, by omega⟩) rfl rfl,
      Blocks.eps_apply m c t k o (ix2 k ⟨256 * t.val + o.val, by omega⟩) rfl rfl]
  · rw [Blocks.bmu_apply m c t 0 o (ix2 (0 : Fin 1) ⟨256 * t.val + o.val, by omega⟩) rfl rfl,
      Blocks.bsig_apply m c t 0 o (ix2 (0 : Fin 1) ⟨256 * t.val + o.val, by omega⟩) rfl rfl,
      Blocks.epsb_apply m c t 0 o (ix2 (0 : Fin 1) ⟨256 * t.val + o.val, by omega⟩) rfl rfl]

/-- WHAT POINT `t` WRITES BACK is its tile of the layer's output. -/
theorem flushed_eq (c : Dev nD) (t : Fin cfg0.N) (hf : (cfg0.win 8).flush t = true) :
    (dats m 0 c).flushed 8 t = ((cfg0.win 8).blk t).view.read (Elt Ideal) (result m c) := by
  rw [Value.flushed8_A m c t]
  funext j
  show out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) j = result m c (((cfg0.win 8).blk t).view.emb j)
  refine (congrFun (Pieces.emit (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)) j).trans ?_
  exact tile_eq m c t j _ (Blocks.out_emb t j).1 (Blocks.out_emb t j).2

/-- Every index of the result lies in the tile of its column's point. -/
theorem cover (i : S1024x2048.Idx) :
    ∃ t : Fin cfg0.N, (cfg0.win 8).flush t = true ∧ i ∈ ((cfg0.win 8).blk t).view.set := by
  have hN : cfg0.N = 8 := N_0
  have h1 : (i 1).val < 2048 := (i 1).isLt
  refine ⟨⟨(i 1).val / 256, by omega⟩, flush0_8 _, ?_⟩
  rw [Blocks.mem_out]
  show 256 * ((i 1).val / 256) ≤ (i 1).val ∧ (i 1).val < 256 * ((i 1).val / 256) + 256
  omega

/-- So the result array ends holding the layer's output. -/
theorem final (c : Dev nD) : (dats m 0 c).arrAt 8 cfg0.N = result m c :=
  (dats m 0 c).arrAt_eq_of_cover 8 (result m c) (flushed_eq m c) cover

/-- The run, read: the result array at the layer's output, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefBlocks.lean ====
/-
  Where the K-blocked program's windows sit in their arrays.

  The grid has 32 points; point t handles output tile t / 4 (256 columns wide) and K-block t % 4 (512 wide):
    * the activations' block is rows 0 … 1023, columns 512·(t % 4) … 512·(t % 4) + 511 of x;
    * each weight-shaped block is rows 512·(t % 4) … + 511, columns 256·(t / 4) … + 255 of its array;
    * each bias-shaped block is columns 256·(t / 4) … + 255 of its row;
    * the output tile is rows 0 … 1023, columns 256·(t / 4) … + 255 of the result.
  A block's coordinate in its array is always (block index) × (block extent) + (coordinate inside the block).
-/
import proofs.«180187_g2000605425660429_pallaspilot1_180_2_alg».proof.Proof.Gen.ReferenceIdeal.Value
import Idealize.ShloMosaic.Lib.ValueIdx

noncomputable section

open Idealize.ShloMosaic Idealize.ShloMosaic.TcCoe Idealize.SL.Sem
open Idealize.ShloMosaic.Pipeline (Dat)

namespace Cert.ReferenceIdeal.Blocks

open Cert.ReferenceIdeal Cert.ReferenceIdeal.Gen Idealize.ShloMosaic.ValueIdx

variable {F : FTy → Type} [FloatOps F]
variable (m : (ℓ : Loc nD τ sig) → Buf (Elt F) ℓ)

/-- Two indices of a matrix with the same row and the same column are the same index. -/
theorem idx2_ext {n0 n1 : ℕ} (u v : (⟨2, ![n0, n1]⟩ : Shape).Idx) (h0 : (u 0).val = (v 0).val)
    (h1 : (u 1).val = (v 1).val) : u = v := by
  funext a
  apply Fin.ext
  match a with
  | ⟨0, _⟩ => exact h0
  | ⟨1, _⟩ => exact h1

/-- The printed index maps, decided once over the 32 grid points. -/
theorem idx_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = t.val % 4 ∧ win0_4.index t (1 : Fin 2) = t.val / 4
    ∧ win0_5.index t (0 : Fin 2) = 0 ∧ win0_5.index t (1 : Fin 2) = t.val / 4
    ∧ win0_6.index t (0 : Fin 2) = 0 ∧ win0_6.index t (1 : Fin 2) = t.val / 4
    ∧ win0_7.index t (0 : Fin 2) = 0 ∧ win0_7.index t (1 : Fin 2) = t.val / 4
    ∧ win0_8.index t (0 : Fin 2) = 0 ∧ win0_8.index t (1 : Fin 2) = t.val / 4 :=
  (by decide +kernel : ∀ t : Fin grid0.N, _)

/-- The activations' block at point `t`, entry (r, k), is x at (r, 512·(t % 4) + k). -/
theorem x_apply (c : Dev nD) (t : Fin cfg0.N) (r : Fin 1024) (k : Fin 512) (i : S1024x2048.Idx)
    (h0 : (i 0).val = r.val) (h1 : (i 1).val = 512 * (t.val % 4) + k.val) :
    (iblk m c 0 t : Vec F S1024x512 .f32) (ix2 r k) = m ((c : Thread nD τ).loc main_arg0) i := by
  obtain ⟨x0, x1, a0, a1, b0, b1, d0, d1, e0, e1, f0, f1, g0, g1, p0, p1, y0, y1⟩ := idx_facts t
  unfold iblk
  rw [View.read_apply]
  show V m c main_arg0 _ = m ((c : Thread nD τ).loc main_arg0) i
  unfold V
  refine congrArg _ (idx2_ext _ _ ?_ ?_)
  · show win0_0.index t (0 : Fin 2) * 1024 + 1 * r.val = (i 0).val; omega
  · show win0_0.index t (1 : Fin 2) * 512 + 1 * k.val = (i 1).val; omega

/-- cγ's block at point `t`, entry (k, o), is cγ at (512·(t % 4) + k, 256·(t / 4) + o). -/
theorem cg_apply (c : Dev nD) (t : Fin cfg0.N) (k : Fin 512) (o : Fin 256) (i : S2048x2048.Idx)
    (h0 : (i 0).val = 512 * (t.val % 4) + k.val) (h1 : (i 1).val = 256 * (t.val / 4) + o.val) :
    (iblk m c 1 t : Vec F S512x256 .f32) (ix2 k o) = m ((c : Thread nD τ).loc main_arg1) i := by
  obtain ⟨x0, x1, a0, a1, b0, b1, d0, d1, e0, e1, f0, f1, g0, g1, p0, p1, y0, y1⟩ := idx_facts t
  unfold iblk
  rw [View.read_apply]
  show V m c main_arg1 _ = m ((c : Thread nD τ).loc main_arg1) i
  unfold V
  refine congrArg _ (idx2_ext _ _ ?_ ?_)
  · show win0_1.index t (0 : Fin 2) * 512 + 1 * k.val = (i 0).val; omega
  · show win0_1.index t (1 : Fin 2) * 256 + 1 * o.val = (i 1).val; omega

/-- μ's block at point `t`, entry (k, o), is μ at (512·(t % 4) + k, 256·(t / 4) + o). -/
theorem wmu_apply (c : Dev nD) (t : Fin cfg0.N) (k : Fin 512) (o : Fin 256) (i : S2048x2048.Idx)
    (h0 : (i 0).val = 512 * (t.val % 4) + k.val) (h1 : (i 1).val = 256 * (t.val / 4) + o.val) :
    (iblk m c 2 t : Vec F S512x256 .f32) (ix2 k o) = m ((c : Thread nD τ).loc main_arg2) i := by
  obtain ⟨x0, x1, a0, a1, b0, b1, d0, d1, e0, e1, f0, f1, g0, g1, p0, p1, y0, y1⟩ := idx_facts t
  unfold iblk
  rw [View.read_apply]
  show V m c main_arg2 _ = m ((c : Thread nD τ).loc main_arg2) i
  unfold V
  refine congrArg _ (idx2_ext _ _ ?_ ?_)
  · show win0_2.index t (0 : Fin 2) * 512 + 1 * k.val = (i 0).val; omega
  · show win0_2.index t (1 : Fin 2) * 256 + 1 * o.val = (i 1).val; omega

/-- σ's block at point `t`, entry (k, o), is σ at (512·(t % 4) + k, 256·(t / 4) + o). -/
theorem wsig_apply (c : Dev nD) (t : Fin cfg0.N) (k : Fin 512) (o : Fin 256) (i : S2048x2048.Idx)
    (h0 : (i 0).val = 512 * (t.val % 4) + k.val) (h1 : (i 1).val = 256 * (t.val / 4) + o.val) :
    (iblk m c 3 t : Vec F S512x256 .f32) (ix2 k o) = m ((c : Thread nD τ).loc main_arg3) i := by
  obtain ⟨x0, x1, a0, a1, b0, b1, d0, d1, e0, e1, f0, f1, g0, g1, p0, p1, y0, y1⟩ := idx_facts t
  unfold iblk
  rw [View.read_apply]
  show V m c main_arg3 _ = m ((c : Thread nD τ).loc main_arg3) i
  unfold V
  refine congrArg _ (idx2_ext _ _ ?_ ?_)
  · show win0_3.index t (0 : Fin 2) * 512 + 1 * k.val = (i 0).val; omega
  · show win0_3.index t (1 : Fin 2) * 256 + 1 * o.val = (i 1).val; omega

/-- ε's block at point `t`, entry (k, o), is ε at (512·(t % 4) + k, 256·(t / 4) + o). -/
theorem eps_apply (c : Dev nD) (t : Fin cfg0.N) (k : Fin 512) (o : Fin 256) (i : S2048x2048.Idx)
    (h0 : (i 0).val = 512 * (t.val % 4) + k.val) (h1 : (i 1).val = 256 * (t.val / 4) + o.val) :
    (iblk m c 4 t : Vec F S512x256 .f32) (ix2 k o) = m ((c : Thread nD τ).loc main_arg4) i := by
  obtain ⟨x0, x1, a0, a1, b0, b1, d0, d1, e0, e1, f0, f1, g0, g1, p0, p1, y0, y1⟩ := idx_facts t
  unfold iblk
  rw [View.read_apply]
  show V m c main_arg4 _ = m ((c : Thread nD τ).loc main_arg4) i
  unfold V
  refine congrArg _ (idx2_ext _ _ ?_ ?_)
  · show win0_4.index t (0 : Fin 2) * 512 + 1 * k.val = (i 0).val; omega
  · show win0_4.index t (1 : Fin 2) * 256 + 1 * o.val = (i 1).val; omega

/-- βμ's block at point `t`, entry (0, o), is βμ at (0, 256·(t / 4) + o). -/
theorem bmu_apply (c : Dev nD) (t : Fin cfg0.N) (z : Fin 1) (o : Fin 256) (i : S1x2048.Idx)
    (h0 : (i 0).val = 0) (h1 : (i 1).val = 256 * (t.val / 4) + o.val) :
    (iblk m c 5 t : Vec F S1x256 .f32) (ix2 z o) = m ((c : Thread nD τ).loc main_arg5) i := by
  obtain ⟨x0, x1, a0, a1, b0, b1, d0, d1, e0, e1, f0, f1, g0, g1, p0, p1, y0, y1⟩ := idx_facts t
  have hz : z.val = 0 := by omega
  unfold iblk
  rw [View.read_apply]
  show V m c main_arg5 _ = m ((c : Thread nD τ).loc main_arg5) i
  unfold V
  refine congrArg _ (idx2_ext _ _ ?_ ?_)
  · show win0_5.index t (0 : Fin 2) * 1 + 1 * z.val = (i 0).val; omega
  · show win0_5.index t (1 : Fin 2) * 256 + 1 * o.val = (i 1).val; omega

/-- βσ's block at point `t`, entry (0, o), is βσ at (0, 256·(t / 4) + o). -/
theorem bsig_apply (c : Dev nD) (t : Fin cfg0.N) (z : Fin 1) (o : Fin 256) (i : S1x2048.Idx)
    (h0 : (i 0).val = 0) (h1 : (i 1).val = 256 * (t.val / 4) + o.val) :
    (iblk m c 6 t : Vec F S1x256 .f32) (ix2 z o) = m ((c : Thread nD τ).loc main_arg6) i := by
  obtain ⟨x0, x1, a0, a1, b0, b1, d0, d1, e0, e1, f0, f1, g0, g1, p0, p1, y0, y1⟩ := idx_facts t
  have hz : z.val = 0 := by omega
  unfold iblk
  rw [View.read_apply]
  show V m c main_arg6 _ = m ((c : Thread nD τ).loc main_arg6) i
  unfold V
  refine congrArg _ (idx2_ext _ _ ?_ ?_)
  · show win0_6.index t (0 : Fin 2) * 1 + 1 * z.val = (i 0).val; omega
  · show win0_6.index t (1 : Fin 2) * 256 + 1 * o.val = (i 1).val; omega

/-- εb's block at point `t`, entry (0, o), is εb at (0, 256·(t / 4) + o). -/
theorem epsb_apply (c : Dev nD) (t : Fin cfg0.N) (z : Fin 1) (o : Fin 256) (i : S1x2048.Idx)
    (h0 : (i 0).val = 0) (h1 : (i 1).val = 256 * (t.val / 4) + o.val) :
    (iblk m c 7 t : Vec F S1x256 .f32) (ix2 z o) = m ((c : Thread nD τ).loc main_arg7) i := by
  obtain ⟨x0, x1, a0, a1, b0, b1, d0, d1, e0, e1, f0, f1, g0, g1, p0, p1, y0, y1⟩ := idx_facts t
  have hz : z.val = 0 := by omega
  unfold iblk
  rw [View.read_apply]
  show V m c main_arg7 _ = m ((c : Thread nD τ).loc main_arg7) i
  unfold V
  refine congrArg _ (idx2_ext _ _ ?_ ?_)
  · show win0_7.index t (0 : Fin 2) * 1 + 1 * z.val = (i 0).val; omega
  · show win0_7.index t (1 : Fin 2) * 256 + 1 * o.val = (i 1).val; omega

/-- The output tile's entry (r, o) at point `t` sits at (r, 256·(t / 4) + o) of the result. -/
theorem out_emb (t : Fin cfg0.N) (j : S1024x256.Idx) :
    ((((cfg0.win 8).blk t).view.emb j) 0).val = (j 0).val
    ∧ ((((cfg0.win 8).blk t).view.emb j) 1).val = 256 * (t.val / 4) + (j 1).val := by
  obtain ⟨x0, x1, a0, a1, b0, b1, d0, d1, e0, e1, f0, f1, g0, g1, p0, p1, y0, y1⟩ := idx_facts t
  constructor
  · show win0_8.index t (0 : Fin 2) * 1024 + 1 * (j 0).val = (j 0).val; omega
  · show win0_8.index t (1 : Fin 2) * 256 + 1 * (j 1).val = 256 * (t.val / 4) + (j 1).val; omega

/-- An index of the result lies in point `t`'s output tile iff its column lies in the tile's 256 columns. -/
theorem mem_out (t : Fin cfg0.N) (i : S1024x2048.Idx) :
    i ∈ ((cfg0.win 8).blk t).view.set ↔ 256 * (t.val / 4) ≤ (i 1).val ∧ (i 1).val < 256 * (t.val / 4) + 256 := by
  obtain ⟨x0, x1, a0, a1, b0, b1, d0, d1, e0, e1, f0, f1, g0, g1, p0, p1, y0, y1⟩ := idx_facts t
  have hi0 : (i 0).val < 1024 := (i 0).isLt
  show i ∈ ((View.whole main_v0).slice (win0_8.rect t)).set ↔ _
  rw [View.set_slice_whole, Rect.mem_set_unit]
  constructor
  · intro h
    have b1 : win0_8.index t (1 : Fin 2) * 256 ≤ (i 1).val ∧ (i 1).val < win0_8.index t (1 : Fin 2) * 256 + 256 := h 1
    omega
  · intro h a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 256 ≤ (i 1).val ∧ (i 1).val < win0_8.index t (1 : Fin 2) * 256 + 256; omega

end Cert.ReferenceIdeal.Blocks

end
-- ==== Proof.RefPieces.lean ====
/-
  What each control case of the K-blocked program leaves behind, as a value.

  The body keeps a [1024, 256] accumulator across the four K-blocks of an output tile. Writing
  `step acc` for  acc + x_blk · (cγ_blk ⊙ (μ_blk + σ_blk ⊙ ε_blk))  of the point's blocks:
    * at the first K-block the accumulator is zeroed and then stepped:  step 0;
    * at the two middle K-blocks it is stepped:                        step acc;
    * at the last K-block it is stepped, and the output tile receives  step acc + (βμ + βσ ⊙ εb)  spread over the rows.
  Each statement is the case's covering store read back: one store covers the whole buffer, and a load that
  follows a covering store of the same buffer reads what was stored.
-/
import proofs.«180187_g2000605425660429_pallaspilot1_180_2_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

/-- The zero offset of a whole-buffer rectangle. -/
theorem hz : (![0, 0] : Fin 2 → Nat) = fun _ => 0 := funext fun a => by fin_cases a <;> rfl

/-- First K-block: the accumulator ends at one step from the zero block. -/
theorem acc_first (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : cond0_0 i) (hc1 : ¬cond0_1 i) (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay2 x1 x2 x3 x4 (k0_pay1 (F := F)) x0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1024x256) hz, View.readCov_unit_zero (S := S1024x256) _ hz]
  simp only [View.readAt_eq_ld, harg2.read_unread, harg3.read_unread, harg4.read_unread, harg5.read_unread,
    harg6.read_unread, View.ld_unit_zero (S := S1024x512) hz, View.ld_unit_zero (S := S512x256) hz]

/-- A middle K-block: the accumulator ends at one step from what the point before left. -/
theorem acc_middle (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : ¬cond0_1 i) (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x1 x2 x3 x4 xs0 x0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread,
    harg6.read_unread, harg11.read_unread, View.ld_unit_zero (S := S1024x512) hz, View.ld_unit_zero (S := S512x256) hz,
    View.ld_unit_zero (S := S1024x256) hz]

/-- The last K-block: the accumulator ends at one step from what the point before left, -/
theorem acc_last (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x1 x2 x3 x4 xs0 x0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread,
    harg6.read_unread, harg11.read_unread, View.ld_unit_zero (S := S1024x512) hz, View.ld_unit_zero (S := S512x256) hz,
    View.ld_unit_zero (S := S1024x256) hz]

/-- and the output tile receives that accumulator plus the sampled bias row. -/
theorem emit_last (c : Dev nD) (i : grid0.Coords) (arg2 : Memref sig .tc .vmem S1024x512 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1024x256 .f32) (harg10 : arg10.IsWhole) (arg11 : Memref sig .tc .vmem S1024x256 .f32) (harg11 : arg11.IsWhole) (hc0 : ¬cond0_0 i) (hc1 : cond0_1 i) (x0 : Vec F S1024x512 .f32) (x1 : Vec F S512x256 .f32) (x2 : Vec F S512x256 .f32) (x3 : Vec F S512x256 .f32) (x4 : Vec F S512x256 .f32) (x5 : Vec F S1x256 .f32) (x6 : Vec F S1x256 .f32) (x7 : Vec F S1x256 .f32) (xs0 : Vec F S1024x256 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay3 (k0_pay2 x1 x2 x3 x4 xs0 x0) x5 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg9.read_unread, harg11.read_unread,
    View.readCov_unit_zero (S := S1024x256) _ hz,
    View.ld_unit_zero (S := S1024x512) hz, View.ld_unit_zero (S := S512x256) hz,
    View.ld_unit_zero (S := S1024x256) hz, View.ld_unit_zero (S := S1x256) hz]

end Cert.ReferenceIdeal.Pieces

end
-- ==== Proof.RefPayload.lean ====
/-
  The K-blocked program's three store payloads read at one entry, on the extended reals.

  With a point's blocks  x_blk [1024, 512],  cγ_blk, μ_blk, σ_blk, ε_blk [512, 256]  and bias rows [1, 256]:
    * the zero block is 0 at every entry;
    * one step of the accumulator at (r, o) is  acc[r, o] + ∑ k < 512, x_blk[r, k] · (cγ_blk[k, o] · (μ_blk[k, o] + σ_blk[k, o] · ε_blk[k, o]));
    * the emitted tile at (r, o) is  acc[r, o] + (βμ[0, o] + βσ[0, o] · εb[0, o]).
  A change of float format is the identity on the extended reals and the matrix unit's product into the zero block is
  the plain sum of products, so nothing else is left of the payloads.
-/
import proofs.«180187_g2000605425660429_pallaspilot1_180_2_alg».proof.Proof.Gen.ReferenceIdeal.Skeleton
import proofs.«180187_g2000605425660429_pallaspilot1_180_2_alg».proof.Proof.LibPlainProduct

noncomputable section

open scoped BigOperators
open Idealize.ShloMosaic Idealize.ShloMosaic.TcCoe Idealize.SL.Sem

namespace Cert.ReferenceIdeal.Payload

open Cert.ReferenceIdeal Cert.ReferenceIdeal.Gen Idealize.ShloMosaic.ValueIdx

/-- The zero block is zero. -/
theorem zero_apply (j : S1024x256.Idx) : k0_pay1 (F := Ideal) j = 0 := by
  unfold k0_pay1
  simp only [shapeCast_self]
  exact Ideal.ofBits_zero_f32

/-- One step of the accumulator at row `r`, column `o` of the tile. -/
theorem step_apply (cg wmu wsig eps : Vec Ideal S512x256 .f32) (acc : Vec Ideal S1024x256 .f32)
    (x : Vec Ideal S1024x512 .f32) (r : Fin 1024) (o : Fin 256) :
    k0_pay2 (F := Ideal) cg wmu wsig eps acc x (ix2 r o)
      = acc (ix2 r o)
        + ∑ k : Fin 512, x (ix2 r k) * (cg (ix2 k o) * (wmu (ix2 k o) + wsig (ix2 k o) * eps (ix2 k o))) := by
  unfold k0_pay2
  simp only [shapeCast_self]
  rw [addf_apply]
  refine congrArg (acc (ix2 r o) + ·) ?_
  refine (Cert.PlainProduct.matmul_apply_ix2 (φ₁ := .f32) (φ₂ := .f32) dot_S1024x512_S512x256_S1024x256_1_0_0_1_n_n_wf none x
    (mulf cg (addf wmu (mulf wsig eps))) (constant S1024x256 .f32 0x00000000#32) r o).trans ?_
  rw [constant_apply, Ideal.ofBits_zero_f32, zero_add]
  rfl

/-- The emitted tile at row `r`, column `o`: the accumulator plus the sampled bias of that column. -/
theorem emit_apply (acc : Vec Ideal S1024x256 .f32) (bmu bsig epsb : Vec Ideal S1x256 .f32) (r : Fin 1024) (o : Fin 256) :
    k0_pay3 (F := Ideal) acc bmu bsig epsb (ix2 r o)
      = acc (ix2 r o) + (bmu (ix2 (0 : Fin 1) o) + bsig (ix2 (0 : Fin 1) o) * epsb (ix2 (0 : Fin 1) o)) := by
  unfold k0_pay3
  rw [addf_apply, Cert.PlainProduct.broadcastTo_row_apply]
  rfl

end Cert.ReferenceIdeal.Payload

end
-- ==== Proof.RefWhole.lean ====
/-
  The K-blocked program's result array is the layer's output.

  For an output tile q (256 columns) the grid visits the four K-blocks s = 0, 1, 2, 3 at points 4q + s. Write
  P(n) for point n's partial product  x_blk · (cγ_blk ⊙ (μ_blk + σ_blk ⊙ ε_blk)).  The accumulator after point 4q + s
  is  0 + (P(4q) + … + P(4q + s)):  it is reset to zero and stepped at s = 0 and stepped at every later s, so it is the
  fold of the steps from the reset, and a fold whose steps each add a term is the zero plus the sum of the terms.
  The tile written back at s = 3 is that accumulator plus the sampled bias row. Read through the windows, P(4q + s) at
  (r, o) is the sum over quarter s of the contraction index of x[r, k] · w[k, 256q + o], and four quarters make the
  whole contraction. The eight tiles cover the result's 2048 columns.
-/
import proofs.«180187_g2000605425660429_pallaspilot1_180_2_alg».proof.Proof.RefBlocks
import proofs.«180187_g2000605425660429_pallaspilot1_180_2_alg».proof.Proof.RefPieces
import proofs.«180187_g2000605425660429_pallaspilot1_180_2_alg».proof.Proof.RefPayload
import proofs.«180187_g2000605425660429_pallaspilot1_180_2_alg».proof.Proof.Spec

noncomputable section

open scoped BigOperators
open Idealize.ShloMosaic Idealize.ShloMosaic.TcCoe Idealize.SL.Sem
open Idealize.ShloMosaic.Pipeline (Dat)

namespace Cert.ReferenceIdeal.Whole

open Cert.ReferenceIdeal Cert.ReferenceIdeal.Gen Idealize.ShloMosaic.ValueIdx

variable (m : (ℓ : Loc nD τ sig) → Buf (Elt Ideal) ℓ) (ρ : Dev nD → PrngReg)

/-- The layer's output of the argument arrays as launched. -/
abbrev result (c : Dev nD) : Buf (Elt Ideal) ((c : Thread nD τ).loc main_v0) :=
  Cert.SampledLinear.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The point's blocks and the argument arrays, each named at its literal type, so that their entries are plain extended reals. -/
abbrev xb (c : Dev nD) (t : Fin cfg0.N) : Vec Ideal S1024x512 .f32 := iblk m c 0 t
abbrev cgb (c : Dev nD) (t : Fin cfg0.N) : Vec Ideal S512x256 .f32 := iblk m c 1 t
abbrev mub (c : Dev nD) (t : Fin cfg0.N) : Vec Ideal S512x256 .f32 := iblk m c 2 t
abbrev sgb (c : Dev nD) (t : Fin cfg0.N) : Vec Ideal S512x256 .f32 := iblk m c 3 t
abbrev epb (c : Dev nD) (t : Fin cfg0.N) : Vec Ideal S512x256 .f32 := iblk m c 4 t
abbrev X (c : Dev nD) : Cert.SampledLinear.SAct.Idx → EReal := m ((c : Thread nD τ).loc main_arg0)
abbrev CG (c : Dev nD) : Cert.SampledLinear.SWgt.Idx → EReal := m ((c : Thread nD τ).loc main_arg1)
abbrev MU (c : Dev nD) : Cert.SampledLinear.SWgt.Idx → EReal := m ((c : Thread nD τ).loc main_arg2)
abbrev SG (c : Dev nD) : Cert.SampledLinear.SWgt.Idx → EReal := m ((c : Thread nD τ).loc main_arg3)
abbrev EP (c : Dev nD) : Cert.SampledLinear.SWgt.Idx → EReal := m ((c : Thread nD τ).loc main_arg4)

/-- Point `n`'s partial product at row `r`, column `o` of its tile, of the blocks the windows hold there (zero
    past the grid, where it is never used). -/
def part (c : Dev nD) (n : ℕ) (r : Fin 1024) (o : Fin 256) : EReal :=
  if h : n < cfg0.N then
    ∑ k : Fin 512, xb m c ⟨n, h⟩ (ix2 r k)
      * (cgb m c ⟨n, h⟩ (ix2 k o) * (mub m c ⟨n, h⟩ (ix2 k o) + sgb m c ⟨n, h⟩ (ix2 k o) * epb m c ⟨n, h⟩ (ix2 k o)))
  else 0

/-- At the first K-block of a tile the accumulator is left at zero plus the point's partial product. -/
theorem reset_apply (c : Dev nD) (n : ℕ) (hn : n % 4 = 0) (h : n < cfg0.N) (j : S1024x256.Idx) :
    Value.scAt0_0 m c n h (VS0_0.read (Elt Ideal) VS0_0.junk) j = 0 + part m c n (j 0) (j 1) := by
  obtain ⟨r, o, rfl⟩ : ∃ (r : Fin 1024) (o : Fin 256), j = ix2 r o := ⟨j 0, j 1, eq_ix2 j⟩
  show _ = 0 + part m c n r o
  unfold Value.scAt0_0
  rw [dif_pos hn, dif_neg (by omega)]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N))) (ix2 r o)).trans ?_
  refine (Payload.step_apply (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (k0_pay1 (F := Ideal)) (iblk m c 0 (⟨n, h⟩ : Fin cfg0.N)) r o).trans ?_
  rw [Payload.zero_apply]
  unfold part
  rw [dif_pos h]

/-- At every later K-block the accumulator gains the point's partial product. -/
theorem step_at (c : Dev nD) (n : ℕ) (h : n < cfg0.N) (hn : ¬n % 4 = 0) (acc : Vec Ideal S1024x256 .f32) (j : S1024x256.Idx) :
    Value.scAt0_0 m c n h acc j = acc j + part m c n (j 0) (j 1) := by
  obtain ⟨r, o, rfl⟩ : ∃ (r : Fin 1024) (o : Fin 256), j = ix2 r o := ⟨j 0, j 1, eq_ix2 j⟩
  show _ = acc (ix2 r o) + part m c n r o
  unfold Value.scAt0_0
  rw [dif_neg hn]
  by_cases h3 : n % 4 = 3
  · rw [dif_pos h3]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) (ix2 r o)).trans ?_
    refine (Payload.step_apply (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc (iblk m c 0 (⟨n, h⟩ : Fin cfg0.N)) r o).trans ?_
    unfold part
    rw [dif_pos h]
  · rw [dif_neg h3]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) scM0_0 (Memref.isWhole_whole _) _ _ (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) (ix2 r o)).trans ?_
    refine (Payload.step_apply (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc (iblk m c 0 (⟨n, h⟩ : Fin cfg0.N)) r o).trans ?_
    unfold part
    rw [dif_pos h]

/-- The accumulator after point `t`: zero plus the partial products of the tile's K-blocks up to `t`'s. -/
theorem acc_eq (c : Dev nD) (t : Fin cfg0.N) (j : S1024x256.Idx) :
    (outsAt0 m c t.val t.isLt).2 j
      = 0 + ∑ s ∈ Finset.range (t.val % 4 + 1), part m c (4 * (t.val / 4) + s) (j 0) (j 1) := by
  rw [Value.soutsAt0_0_eq m c t]
  exact Pipeline.accAt_add_apply (fun n h => Value.scAt0_0 m c n h (VS0_0.read (Elt Ideal) VS0_0.junk)) (Value.scAt0_0 m c)
    (fun _ => (0 : EReal)) (fun n i => part m c n (i 0) (i 1)) (4 * (t.val / 4)) 3
    (fun h i => reset_apply m c _ (by omega) h i)
    (fun n h acc i hlt hle => step_at m c n h (by omega) acc i)
    (t.val % 4) (by omega) _ j

/-- A partial product read through the windows: quarter `s` of the contraction of row `r` of x against column
    256·q + o of the sampled weight. -/
theorem part_eq (c : Dev nD) (q s : ℕ) (hs : s < 4) (hq : q < 8) (r : Fin 1024) (o : Fin 256) :
    part m c (4 * q + s) r o
      = ∑ k : Fin 512, X m c (ix2 r (Cert.SampledLinear.qk s hs k))
          * Cert.SampledLinear.wgt (CG m c) (MU m c) (SG m c) (EP m c) (Cert.SampledLinear.qk s hs k)
              ⟨256 * q + o.val, by have := o.isLt; omega⟩ := by
  have hN : cfg0.N = 32 := N_0
  have hlt : 4 * q + s < cfg0.N := by omega
  have hm : (4 * q + s) % 4 = s := by omega
  have hd : (4 * q + s) / 4 = q := by omega
  unfold part
  rw [dif_pos hlt]
  refine Finset.sum_congr rfl fun k _ => ?_
  have hk := k.isLt
  have ho := o.isLt
  unfold Cert.SampledLinear.wgt xb cgb mub sgb epb
  rw [Blocks.x_apply m c ⟨4 * q + s, hlt⟩ r k (ix2 r (Cert.SampledLinear.qk s hs k)) rfl
      (by show 512 * s + k.val = 512 * ((4 * q + s) % 4) + k.val; rw [hm]),
    Blocks.cg_apply m c ⟨4 * q + s, hlt⟩ k o (ix2 (Cert.SampledLinear.qk s hs k) ⟨256 * q + o.val, by omega⟩)
      (by show 512 * s + k.val = 512 * ((4 * q + s) % 4) + k.val; rw [hm])
      (by show 256 * q + o.val = 256 * ((4 * q + s) / 4) + o.val; rw [hd]),
    Blocks.wmu_apply m c ⟨4 * q + s, hlt⟩ k o (ix2 (Cert.SampledLinear.qk s hs k) ⟨256 * q + o.val, by omega⟩)
      (by show 512 * s + k.val = 512 * ((4 * q + s) % 4) + k.val; rw [hm])
      (by show 256 * q + o.val = 256 * ((4 * q + s) / 4) + o.val; rw [hd]),
    Blocks.wsig_apply m c ⟨4 * q + s, hlt⟩ k o (ix2 (Cert.SampledLinear.qk s hs k) ⟨256 * q + o.val, by omega⟩)
      (by show 512 * s + k.val = 512 * ((4 * q + s) % 4) + k.val; rw [hm])
      (by show 256 * q + o.val = 256 * ((4 * q + s) / 4) + o.val; rw [hd]),
    Blocks.eps_apply m c ⟨4 * q + s, hlt⟩ k o (ix2 (Cert.SampledLinear.qk s hs k) ⟨256 * q + o.val, by omega⟩)
      (by show 512 * s + k.val = 512 * ((4 * q + s) % 4) + k.val; rw [hm])
      (by show 256 * q + o.val = 256 * ((4 * q + s) / 4) + o.val; rw [hd])]

/-- THE TILE a last-K-block point emits, entry by entry, is the layer's output there. -/
theorem tile_eq (c : Dev nD) (t : Fin cfg0.N) (h3 : t.val % 4 = 3) (j : S1024x256.Idx) (i : S1024x2048.Idx)
    (hi0 : (i 0).val = (j 0).val) (hi1 : (i 1).val = 256 * (t.val / 4) + (j 1).val) :
    k0_pay3 (F := Ideal) (outsAt0 m c t.val t.isLt).2 (iblk m c 5 t) (iblk m c 6 t) (iblk m c 7 t) j = result m c i := by
  obtain ⟨r, o, rfl⟩ : ∃ (r : Fin 1024) (o : Fin 256), j = ix2 r o := ⟨j 0, j 1, eq_ix2 j⟩
  have hN : cfg0.N = 32 := N_0
  have ht := t.isLt
  have ho := o.isLt
  have hq : t.val / 4 < 8 := by omega
  refine (Payload.emit_apply (outsAt0 m c t.val t.isLt).2 (iblk m c 5 t) (iblk m c 6 t) (iblk m c 7 t) r o).trans ?_
  rw [acc_eq m c t (ix2 r o), h3]
  refine Cert.SampledLinear.out_eq_of_quarters _ _ _ _ _ _ _ _ r ⟨256 * (t.val / 4) + o.val, by omega⟩
    (fun s => part m c (4 * (t.val / 4) + s) r o) _ (fun s hs => part_eq m c (t.val / 4) s hs hq r o) ?_ i hi0 hi1
  unfold Cert.SampledLinear.bias
  rw [Blocks.bmu_apply m c t 0 o (ix2 (0 : Fin 1) ⟨256 * (t.val / 4) + o.val, by omega⟩) rfl rfl,
    Blocks.bsig_apply m c t 0 o (ix2 (0 : Fin 1) ⟨256 * (t.val / 4) + o.val, by omega⟩) rfl rfl,
    Blocks.epsb_apply m c t 0 o (ix2 (0 : Fin 1) ⟨256 * (t.val / 4) + o.val, by omega⟩) rfl rfl]

/-- WHAT A LAST-K-BLOCK POINT WRITES BACK is its tile of the layer's output. -/
theorem flushed_eq (c : Dev nD) (t : Fin cfg0.N) (hf : (cfg0.win 8).flush t = true) :
    (dats m 0 c).flushed 8 t = ((cfg0.win 8).blk t).view.read (Elt Ideal) (result m c) := by
  have h3 : t.val % 4 = 3 := (flush0_8 t).mp hf
  have h0 : ¬t.val % 4 = 0 := by omega
  have hacc : (outsAt0 m c t.val t.isLt).2
      = k0_pay2 (F := Ideal) (iblk m c 1 t) (iblk m c 2 t) (iblk m c 3 t) (iblk m c 4 t)
          (outsAt0 m c (t.val - 1) (Nat.lt_of_le_of_lt (Nat.sub_le _ _) t.isLt)).2 (iblk m c 0 t) := by
    rw [outsAt0_C m c t h0 h3]
    dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) (iblk m c 7 t) _
  rw [Value.flushed8_C m c t h0 h3]
  funext j
  show out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 j
    = result m c (((cfg0.win 8).blk t).view.emb j)
  refine (congrFun (Pieces.emit_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) _ _ (iblk m c 0 t) (iblk m c 1 t) (iblk m c 2 t) (iblk m c 3 t) (iblk m c 4 t) (iblk m c 5 t) (iblk m c 6 t) (iblk m c 7 t)
    (outsAt0 m c (t.val - 1) (Nat.lt_of_le_of_lt (Nat.sub_le _ _) t.isLt)).2) j).trans ?_
  rw [← hacc]
  exact tile_eq m c t h3 j _ (Blocks.out_emb t j).1 (Blocks.out_emb t j).2

/-- Every index of the result lies in the tile of the last-K-block point of its column's tile. -/
theorem cover (i : S1024x2048.Idx) :
    ∃ t : Fin cfg0.N, (cfg0.win 8).flush t = true ∧ i ∈ ((cfg0.win 8).blk t).view.set := by
  have hN : cfg0.N = 32 := N_0
  have h1 : (i 1).val < 2048 := (i 1).isLt
  refine ⟨⟨4 * ((i 1).val / 256) + 3, by omega⟩, (flush0_8 _).mpr (by show (4 * ((i 1).val / 256) + 3) % 4 = 3; omega), ?_⟩
  rw [Blocks.mem_out]
  show 256 * ((4 * ((i 1).val / 256) + 3) / 4) ≤ (i 1).val ∧ (i 1).val < 256 * ((4 * ((i 1).val / 256) + 3) / 4) + 256
  omega

/-- So the result array ends holding the layer's output. -/
theorem final (c : Dev nD) : (dats m 0 c).arrAt 8 cfg0.N = result m c :=
  (dats m 0 c).arrAt_eq_of_cover 8 (result m c) (flushed_eq m c) cover

/-- The run, read: the result array at the layer's output, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.ReferenceIdeal.Whole

end
-- ==== Proof.lean ====
/-
  A sampled Bayesian linear layer, computed two ways, is one function on the extended reals.

  With the sampled weight  w = cγ ⊙ (μ + σ ⊙ ε)  and the sampled bias  b = βμ + βσ ⊙ εb,  both programs compute

      y[r, o] = (∑ k < 2048, x[r, k] · w[k, o]) + b[o].

  The first program visits the eight output tiles of 256 columns once each and contracts over all 2048 indices in one
  matrix product (narrowing x and w to the matrix unit's input format first, which is the identity on the extended
  reals). The second visits each tile four times, once per quarter of 512 contraction indices: it zeroes an
  accumulator at the first quarter, adds each quarter's partial product into it, and at the last quarter writes the
  accumulator plus the bias. The second program's accumulator is the fold of its steps from the reset, a fold of
  additions is zero plus the sum of the addends, and the sum of the four quarters' partial sums is the sum over the
  whole contraction because addition on the extended reals is commutative and associative. Nothing distributes and
  nothing cancels, so the precondition that the inputs are finite is never opened.

  Each program terminates without a fault and leaves its arguments unchanged (the three frames), and the idealized
  first program is the first program's own text read on the extended reals (no rewrite was applied).
-/
import proofs.«180187_g2000605425660429_pallaspilot1_180_2_alg».proof.Defs
import proofs.«180187_g2000605425660429_pallaspilot1_180_2_alg».proof.Proof.Gen.Kernel
import proofs.«180187_g2000605425660429_pallaspilot1_180_2_alg».proof.Proof.Gen.Kernel.Frame
import proofs.«180187_g2000605425660429_pallaspilot1_180_2_alg».proof.Proof.Gen.KernelIdeal
import proofs.«180187_g2000605425660429_pallaspilot1_180_2_alg».proof.Proof.Gen.KernelIdeal.Frame
import proofs.«180187_g2000605425660429_pallaspilot1_180_2_alg».proof.Proof.Gen.ReferenceIdeal
import proofs.«180187_g2000605425660429_pallaspilot1_180_2_alg».proof.Proof.Gen.ReferenceIdeal.Frame
import proofs.«180187_g2000605425660429_pallaspilot1_180_2_alg».proof.Proof.Gen.Pre_finite_inputs
import proofs.«180187_g2000605425660429_pallaspilot1_180_2_alg».proof.Proof.KernelWhole
import proofs.«180187_g2000605425660429_pallaspilot1_180_2_alg».proof.Proof.RefWhole
import Idealize.ShloMosaic.Adequacy
import Idealize.ShloMosaic.Init

noncomputable section

namespace Cert.Proof

open Idealize.ShloMosaic Idealize.SL.Sem

/-- Each program terminates, faults nowhere and leaves its arguments as launched. -/
theorem frame_first : Cert.frame_Kernel := fun m ρ _ => Cert.Kernel.Gen.frame m ρ
theorem frame_first_ideal : Cert.frame_KernelIdeal := fun m ρ _ => Cert.KernelIdeal.Gen.frame m ρ
theorem frame_second_ideal : Cert.frame_ReferenceIdeal := fun m ρ _ => Cert.ReferenceIdeal.Gen.frame m ρ

/-- From memories that agree on the eight arguments both programs end with the layer's output in their result array:
    the same function of the same arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨a0, a1, a2, a3, a4, a5, a6, a7⟩ := hagree c
  show Cert.SampledLinear.out _ _ _ _ _ _ _ _ = Cert.SampledLinear.out _ _ _ _ _ _ _ _
  rw [a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_first, frame_first_ideal, frame_second_ideal, trivial, algebraic⟩

end Cert.Proof

end
